-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x3x256x256 : Shape := ⟨5, ![8, 16, 3, 256, 256]⟩
abbrev S_ : Shape := ⟨0, ![]⟩

class Facts : Prop where
  bcast_S_S8x16x3x256x256 : S_.BroadcastsInDim S8x16x3x256x256 (![] : Fin 0 → Fin S8x16x3x256x256.rank)
  reducesTo_S8x16x3x256x256_S_d0_1_2_3_4 : S8x16x3x256x256.ReducesTo [0, 1, 2, 3, 4] S_
  h_S_ : 0 < S_.numel

variable [Facts]

def fn {F : FTy → Type} [FloatOps F] (main_arg0 : FVec F S8x16x3x256x256 .f32) : IVec S_ 1 :=
  let main_v0 : FVec F S8x16x3x256x256 .f32 := Host.absf main_arg0
  let main_cst : FVec F S_ .f32 := constant S_ .f32 0x7F800000#32
  let main_v1 : FVec F S8x16x3x256x256 .f32 := broadcastInDim S8x16x3x256x256 ![] bcast_S_S8x16x3x256x256 main_cst
  let main_v2 : IVec S8x16x3x256x256 1 := cmpf .olt main_v0 main_v1
  let main_c : IVec S_ 1 := constantI S_ 1 1#1
  let main_v3 : IVec S_ 1 := (fun x v => Host.reduce IntOp.andi x v reducesTo_S8x16x3x256x256_S_d0_1_2_3_4 h_S_) main_v2 main_c
  main_v3
-- ==== Kernel.lean ====
abbrev S8x16x3x256x256 : Shape := ⟨5, ![8, 16, 3, 256, 256]⟩
abbrev S128x2x256x256 : Shape := ⟨4, ![128, 2, 256, 256]⟩
abbrev S1x8x1x256x256 : Shape := ⟨5, ![1, 8, 1, 256, 256]⟩
abbrev S1x1x1x256x256 : Shape := ⟨5, ![1, 1, 1, 256, 256]⟩
abbrev S8x2x256x256 : Shape := ⟨4, ![8, 2, 256, 256]⟩
abbrev S8x256x256 : Shape := ⟨3, ![8, 256, 256]⟩
abbrev S1x256x256 : Shape := ⟨3, ![1, 256, 256]⟩
abbrev S7x256x256 : Shape := ⟨3, ![7, 256, 256]⟩
abbrev S8x1x256x256 : Shape := ⟨4, ![8, 1, 256, 256]⟩

abbrev nBuf : Space → Nat
  | .hbm => 2
  | .vmem => 6
  | .smem => 0
  | _ => 0

abbrev bufTy : (tb : Table) → Fin (tcTables nBuf tb) → BufTy
  | .hbm, ⟨0, _⟩ => ⟨S8x16x3x256x256, .f32⟩
  | .hbm, ⟨1, _⟩ => ⟨S128x2x256x256, .f32⟩
  | .local _ .vmem, ⟨0, _⟩ => ⟨S1x8x1x256x256, .f32⟩
  | .local _ .vmem, ⟨1, _⟩ => ⟨S1x8x1x256x256, .f32⟩
  | .local _ .vmem, ⟨2, _⟩ => ⟨S1x1x1x256x256, .f32⟩
  | .local _ .vmem, ⟨3, _⟩ => ⟨S1x1x1x256x256, .f32⟩
  | .local _ .vmem, ⟨4, _⟩ => ⟨S8x2x256x256, .f32⟩
  | .local _ .vmem, ⟨5, _⟩ => ⟨S8x2x256x256, .f32⟩
  | _, _ => ⟨S8x16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x8x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x1x256x256_S1x8x1x256x256_0_0_0_0_0 : ∀ a, (![0, 0, 0, 0, 0] : Fin 5 → Nat) a + S1x8x1x256x256.size a ≤ S1x8x1x256x256.size a
  h_S1x8x1x256x256 : 0 < S1x8x1x256x256.numel
  shapeCasts_S1x8x1x256x256_S8x256x256 : S1x8x1x256x256.ShapeCasts S8x256x256
  inb_S1x1x1x256x256_S1x1x1x256x256_0_0_0_0_0 : ∀ a, (![0, 0, 0, 0, 0] : Fin 5 → Nat) a + S1x1x1x256x256.size a ≤ S1x1x1x256x256.size a
  h_S1x1x1x256x256 : 0 < S1x1x1x256x256.numel
  shapeCasts_S1x1x1x256x256_S1x256x256 : S1x1x1x256x256.ShapeCasts S1x256x256
  slices_S8x256x256_o0_0_0_S7x256x256 : S8x256x256.Slices ![0, 0, 0] S7x256x256
  concatenates_S1x256x256_S7x256x256_S8x256x256_d0 : Shape.Concatenates [S1x256x256, S7x256x256] S8x256x256 0
  inb_S8x2x256x256_S8x1x256x256_0_0_0_0 : ∀ a, (![0, 0, 0, 0] : Fin 4 → Nat) a + S8x1x256x256.size a ≤ S8x2x256x256.size a
  h_S8x1x256x256 : 0 < S8x1x256x256.numel
  shapeCasts_S8x1x256x256_S8x256x256 : S8x1x256x256.ShapeCasts S8x256x256
  shapeCasts_S8x256x256_S8x1x256x256 : S8x256x256.ShapeCasts S8x1x256x256
  inb_S8x2x256x256_S8x1x256x256_0_1_0_0 : ∀ a, (![0, 1, 0, 0] : Fin 4 → Nat) a + S8x1x256x256.size a ≤ S8x2x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1x256x256.size a ≤ S8x16x3x256x256.size a
  hwx0_0 : ∀ i : grid0.Coords, EltTy.bits .f32 = 32 ∨ (Rect.block (s := S8x16x3x256x256) S1x8x1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x256x256.size a ≤ S8x16x3x256x256.size a
  hwx0_1 : ∀ i : grid0.Coords, EltTy.bits .f32 = 32 ∨ (Rect.block (s := S8x16x3x256x256) S1x1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2x256x256.size a ≤ S128x2x256x256.size a
  hwx0_2 : ∀ i : grid0.Coords, EltTy.bits .f32 = 32 ∨ (Rect.block (s := S128x2x256x256) S8x2x256x256.size (cc0_transform_2 i) (hinb0_2 i)).WholeWords (EltTy.packing .f32)

variable [Facts₀]

abbrev win0_0 : Pipeline.Window sig grid0 :=
  Pipeline.Window.ofSpec (Memref.whole main_arg0) S1x8x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x2x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x3x256x256 : Shape := ⟨5, ![8, 16, 3, 256, 256]⟩
abbrev S8x16x1x256x256 : Shape := ⟨5, ![8, 16, 1, 256, 256]⟩
abbrev S8x16x256x256 : Shape := ⟨4, ![8, 16, 256, 256]⟩
abbrev S8x15x256x256 : Shape := ⟨4, ![8, 15, 256, 256]⟩
abbrev S_ : Shape := ⟨0, ![]⟩
abbrev S8x1x256x256 : Shape := ⟨4, ![8, 1, 256, 256]⟩
abbrev S128x256x256 : Shape := ⟨3, ![128, 256, 256]⟩
abbrev S128x1x256x256 : Shape := ⟨4, ![128, 1, 256, 256]⟩
abbrev S128x2x256x256 : Shape := ⟨4, ![128, 2, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S8x16x3x256x256, .f32⟩
  | .hbm, ⟨1, _⟩ => ⟨S8x16x1x256x256, .f32⟩
  | .hbm, ⟨2, _⟩ => ⟨S8x16x256x256, .f32⟩
  | .hbm, ⟨3, _⟩ => ⟨S8x15x256x256, .f32⟩
  | .hbm, ⟨4, _⟩ => ⟨S8x15x256x256, .f32⟩
  | .hbm, ⟨5, _⟩ => ⟨S8x15x256x256, .f32⟩
  | .hbm, ⟨6, _⟩ => ⟨S_, .f32⟩
  | .hbm, ⟨7, _⟩ => ⟨S8x1x256x256, .f32⟩
  | .hbm, ⟨8, _⟩ => ⟨S8x16x256x256, .f32⟩
  | .hbm, ⟨9, _⟩ => ⟨S128x256x256, .f32⟩
  | .hbm, ⟨10, _⟩ => ⟨S128x1x256x256, .f32⟩
  | .hbm, ⟨11, _⟩ => ⟨S128x2x256x256, .f32⟩
  | _, _ => ⟨S8x16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  slices_S8x16x3x256x256_S8x16x1x256x256_0_0_0_0_0 : S8x16x3x256x256.Slices ![0, 0, 0, 0, 0] S8x16x1x256x256
  shapeCasts_S8x16x1x256x256_S8x16x256x256 : S8x16x1x256x256.ShapeCasts S8x16x256x256
  slices_S8x16x256x256_S8x15x256x256_0_1_0_0 : S8x16x256x256.Slices ![0, 1, 0, 0] S8x15x256x256
  slices_S8x16x256x256_S8x15x256x256_0_0_0_0 : S8x16x256x256.Slices ![0, 0, 0, 0] S8x15x256x256
  bcast_S_S8x1x256x256 : S_.BroadcastsInDim S8x1x256x256 (![] : Fin 0 → Fin S8x1x256x256.rank)
  concatenates_S8x1x256x256_S8x15x256x256_S8x16x256x256_d1 : Shape.Concatenates [S8x1x256x256, S8x15x256x256] S8x16x256x256 1
  shapeCasts_S8x16x256x256_S128x256x256 : S8x16x256x256.ShapeCasts S128x256x256
  bcast_S128x256x256_S128x1x256x256_0_2_3 : S128x256x256.BroadcastsInDim S128x1x256x256 (![0, 2, 3] : Fin 3 → Fin S128x1x256x256.rank)
  bcast_S128x1x256x256_S128x2x256x256_0_1_2_3 : S128x1x256x256.BroadcastsInDim S128x2x256x256 (![0, 1, 2, 3] : Fin 4 → Fin S128x2x256x256.rank)

variable [Facts₀]

class Facts : Prop extends Facts₀ where

variable [Facts]
-- ==== Proof.LibFrameShared.lean ====
/-
  The frame run of a one-region TensorCore program whose pipeline hands ONE array to SEVERAL input windows.

  When every window has an array of its own, the launch deals each window its array at the full share.  When two
  input windows read the same array, the array's full share has to be divided among them, and how it is divided is
  a fact about the particular kernel (`hsplit`: the buffers behind the arrays, each whole at the full share, make
  the proof data's `arrays` at entry).  Everything else about the run is the same as for distinct arrays: the body
  obligation at every point, the windows' layout but for the arrays' distinctness, the program's shape up to the
  region, and an invariant that is entered from the core's scoped buffers that are no staging buffer and gives them
  back after the last point.  The kernel is assumed to use no semaphore of its own and not to touch the generator
  register (which the launch lets go).  The conclusion is the same post as for distinct arrays: every window's array
  ends at what the write-backs of the proof data compute, every other unscoped buffer at its contents at the
  region's entry.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run for windows that may share arrays: from the body obligation, the layout facts without the
    arrays' distinctness, the division of the arrays' buffers among the windows at entry (`hsplit`) and an invariant
    between the scoped rest at entry (`hin`) and at exit (`hout`), every weakly fair execution of @main terminates
    with every window's array at the proof data's `arrAt w N` and every bypassing buffer unchanged. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfg).spec c (V c))
    (fun c => by
      iintro H
      isplitr
      · iempintro
      · iexact H)
    (fun c => (show iprop(emp ∗ scopedRest (cfg).spec c) ⊢ (scopedRest (cfg).spec c : sProp 𝕄) from by
      iintro ⟨-, H⟩; iexact H).trans (hin c))
    (fun c => (hout c).trans (by
      iintro H
      isplitr
      · iempintro
      · iexact H))
    (fun c s => ∀ b ∈ restRefs sig (cfg).spec, s.mem ((c.tc : Thread nD τ).loc b) = V c b)
    (fun c s' => by
      iintro ⟨-, HU, HSI⟩
      unfold unscopedRest
      imodintro
      iapply (pointsTo_read_all (restRefs sig (cfg).spec) (fun b => (c.tc : Thread nD τ).loc b) (V c) s')
      isplitl [HU] <;> iassumption)
    (fun s h c => ⟨(h c).1, (h c).2⟩)

end FrameShared

end Pipeline

end Idealize.ShloMosaic

end
-- ==== Proof.KernelRun.lean ====
/-
  The run of the frame-differencing kernel, and what it leaves in memory.

  The kernel is one region over a grid of 8 × 2 points.  Point (b, j) is handed three blocks: frames 8j … 8j+7 of
  channel 0 of batch element b (window 0), the single frame max(8j − 1, 0) of the same channel and batch element
  (window 1) — both cut out of the SAME argument array — and rows 8(2b + j) … 8(2b + j) + 7 of the result, both of its
  channels (window 2).  The body loads the two input blocks, forms "each frame minus the frame before it" with
  window 1's frame standing before the first, and stores that difference into channel 0 and then into channel 1 of
  the output block; the two stores tile the block, so what the block holds afterwards is a function of the two input
  blocks alone.

  Because two windows read one array, the array's full share is divided between them at entry: window 0 holds its
  left half, window 1 its right half; the result array is window 2's at the full share.  Neither input block is
  written, so after every point each input window's buffer holds its block again.  The result's blocks are written
  back at every point.
-/
import proofs.«421723_j43533788512483_3_alg».proof.Proof.Gen.Kernel.Launch
import proofs.«421723_j43533788512483_3_alg».proof.Proof.Gen.Kernel.Skeleton
import proofs.«421723_j43533788512483_3_alg».proof.Proof.Gen.Kernel.Points
import proofs.«421723_j43533788512483_3_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: what they held at launch, the program being the
    region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point. -/
theorem before_frames_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_prev_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output block -/

/-- The whole block of eight frames, -/
abbrev rFrames : Rect S1x8x1x256x256 := Rect.unit (s := S1x8x1x256x256) ![0, 0, 0, 0, 0] S1x8x1x256x256.size inb_S1x8x1x256x256_S1x8x1x256x256_0_0_0_0_0
/-- the whole one-frame block, -/
abbrev rPrev : Rect S1x1x1x256x256 := Rect.unit (s := S1x1x1x256x256) ![0, 0, 0, 0, 0] S1x1x1x256x256.size inb_S1x1x1x256x256_S1x1x1x256x256_0_0_0_0_0
/-- channel 0 of the output block, -/
abbrev rCh0 : Rect S8x2x256x256 := Rect.unit (s := S8x2x256x256) ![0, 0, 0, 0] S8x1x256x256.size inb_S8x2x256x256_S8x1x256x256_0_0_0_0
/-- and channel 1 of it. -/
abbrev rCh1 : Rect S8x2x256x256 := Rect.unit (s := S8x2x256x256) ![0, 1, 0, 0] S8x1x256x256.size inb_S8x2x256x256_S8x1x256x256_0_1_0_0

/-- The output block after the body, from the two input blocks: the store into channel 1 laid over the store into
    channel 0 (the later store first). -/
def outBlock (x0 : Vec F S1x8x1x256x256 .f32) (x1 : Vec F S1x1x1x256x256 .f32) : Vec F S8x2x256x256 .f32 :=
  View.canon [⟨rCh1, k0_pay3 (View.ld x0 rFrames) (View.ld x1 rPrev)⟩, ⟨rCh0, k0_pay2 (View.ld x0 rFrames) (View.ld x1 rPrev)⟩]

/-- The two channel stores tile the block. -/
theorem cover_out (p1 p0 : Vec F S8x1x256x256 .f32) (y : S8x2x256x256.Idx) :
    ∃ pc ∈ ([⟨rCh1, p1⟩, ⟨rCh0, p0⟩] : List (View.Piece (Elt F) S8x2x256x256 .f32)), y ∈ pc.1.set :=
  View.cover_of_tiled [⟨rCh1, p1⟩, ⟨rCh0, p0⟩] S8x1x256x256.size (by rfl) y

/-! ## The body's triple -/

set_option maxHeartbeats 1000000 in
/-- The body on whole staging memrefs, the inputs' at contents `x0`, `x1` and the output's at anything, runs to the
    continuation holding the inputs' as they were and the output's at `outBlock x0 x1`. -/
theorem sound_kernel (c : Dev nD) (E : Set ℕ) (i : grid0.Coords) (arg2 : Memref sig .tc .vmem S1x8x1x256x256 .f32) (harg2 : arg2.IsWhole)
    (arg3 : Memref sig .tc .vmem S1x1x1x256x256 .f32) (harg3 : arg3.IsWhole) (arg4 : Memref sig .tc .vmem S8x2x256x256 .f32) (harg4 : arg4.IsWhole)
    (x0 : Vec F S1x8x1x256x256 .f32) (x1 : Vec F S1x1x1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _)

/-! ## The proof data -/

/-- The pipeline's proof data on core `c`: the arrays as the region finds them; after the body at point `t` each
    input's buffer at its block and the output's at `outBlock` of the two input blocks; the invariant the core's scoped
    buffers that are no staging buffer (there are none); the argument array's left half share with window 0 and its
    right half with window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_frames (c : Dev nD) (t : Fin cfg0.N) : (dats m 0 c).after 0 t = iblk m c 0 t := by dsimp only [dats]
theorem after_prev (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_frames (c : Dev nD) (t : Fin cfg0.N) (d) : (dats m 0 c).before 0 t d = iblk m c 0 t :=
  before_frames_of m (dats m 0 c) (A_eq m c 0) (after_frames m c) t d
theorem before_prev (c : Dev nD) (t : Fin cfg0.N) (d) : (dats m 0 c).before 1 t d = iblk m c 1 t :=
  before_prev_of m (dats m 0 c) (A_eq m c 1) (after_prev m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_frames, before_prev]
  rw [show (dats m 0 c).Φ t.succ = (dats m 0 c).Φ t.castSucc from rfl,
    show (dats m 0 c).owesAt () t.succ = (dats m 0 c).owesAt () t.castSucc from rfl,
    after_frames, after_prev, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Run

end
-- ==== Proof.KernelLaunch.lean ====
/-
  The launch of the frame-differencing kernel: the argument array divided between the two windows that read it,
  the run of the whole program, and what the run's post says of the two arrays.
-/
import proofs.«421723_j43533788512483_3_alg».proof.Proof.KernelRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays are the argument and the result. -/
theorem arrRefs_eq : Finset.univ.image (Pipeline.arrRef spec0) = [main_arg0, main_v0].toFinset := by decide

/-- The argument array, whole at the full share, is its left half share for the window of eight frames and its right
    half share for the window of the one frame before them; the result array is the output window's whole. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)) :=
  bigSep_eq_bigSepL_of_eq [main_arg0, main_v0] arrRefs_eq (by decide) _

theorem split_arrays (c : Dev nD) :
    (Pipeline.arrBufs spec0 c (V m c) : sProp 𝕄) ⊢ (dats m 0 c).arrays ((dats m 0 c).arrAt · 0) := by
  rw [arrBufs_eq]
  unfold Pipeline.Dat.arrays
  rw [bigSep_W0]
  rw [(arr_whole0 0).set_eq_univ, (arr_whole0 2).set_eq_univ]
  rw [show (dats m 0 c).share 0 = fullShare.left from rfl, show (dats m 0 c).share 1 = fullShare.right from rfl,
    show (dats m 0 c).share 2 = fullShare from rfl]
  refine (show _ ⊢ iprop((((c.tc : Thread nD τ).loc main_arg0) ↦{fullShare.left} V m c main_arg0)
    ∗ (((c.tc : Thread nD τ).loc main_arg0) ↦{fullShare.right} V m c main_arg0)
    ∗ (((c.tc : Thread nD τ).loc main_v0) ↦{fullShare} V m c main_v0)) from ?_)
  iintro ⟨Ha, Hv⟩
  ihave H := (pointsTo_share (PosShare.mem_left_op_right fullShare)).1 $$ Ha
  icases H with ⟨H1, H2⟩
  isplitl [H1]; · iexact H1
  isplitl [H2]; · iexact H2
  iexact Hv

/-! ## The run -/

set_option backward.isDefEq.respectTransparency.types false in
/-- Every weakly fair execution of the program terminates, with every window's array at what the write-backs of the
    proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := split_arrays m) (hin := fun c => .rfl) (hout := fun c => .rfl)

/-- The argument array ends as it was launched: it is an input window's array, never written. -/
theorem arg_kept (c : Dev nD) : (dats m 0 c).arrAt 0 cfg0.N = m ((c : Thread nD τ).loc main_arg0) :=
  ((dats m 0 c).arrAt_in 0 rfl _).trans (A_eq m c 0)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (arg_kept m c)) (run_main m ρ)

/-- The run with the result array named: it ends at the output window's array after the last point, the argument
    array unchanged. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨(h c).1 2, ((h c).1 0).trans (arg_kept m c)⟩) (run_main m ρ)

end Cert.Kernel.Run

end
-- ==== Proof.KernelIdealRun.lean ====
/-
  The run of the frame-differencing kernel, and what it leaves in memory.

  The kernel is one region over a grid of 8 × 2 points.  Point (b, j) is handed three blocks: frames 8j … 8j+7 of
  channel 0 of batch element b (window 0), the single frame max(8j − 1, 0) of the same channel and batch element
  (window 1) — both cut out of the SAME argument array — and rows 8(2b + j) … 8(2b + j) + 7 of the result, both of its
  channels (window 2).  The body loads the two input blocks, forms "each frame minus the frame before it" with
  window 1's frame standing before the first, and stores that difference into channel 0 and then into channel 1 of
  the output block; the two stores tile the block, so what the block holds afterwards is a function of the two input
  blocks alone.

  Because two windows read one array, the array's full share is divided between them at entry: window 0 holds its
  left half, window 1 its right half; the result array is window 2's at the full share.  Neither input block is
  written, so after every point each input window's buffer holds its block again.  The result's blocks are written
  back at every point.
-/
import proofs.«421723_j43533788512483_3_alg».proof.Proof.Gen.KernelIdeal.Launch
import proofs.«421723_j43533788512483_3_alg».proof.Proof.Gen.KernelIdeal.Skeleton
import proofs.«421723_j43533788512483_3_alg».proof.Proof.Gen.KernelIdeal.Points
import proofs.«421723_j43533788512483_3_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: what they held at launch, the program being the
    region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point. -/
theorem before_frames_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_prev_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output block -/

/-- The whole block of eight frames, -/
abbrev rFrames : Rect S1x8x1x256x256 := Rect.unit (s := S1x8x1x256x256) ![0, 0, 0, 0, 0] S1x8x1x256x256.size inb_S1x8x1x256x256_S1x8x1x256x256_0_0_0_0_0
/-- the whole one-frame block, -/
abbrev rPrev : Rect S1x1x1x256x256 := Rect.unit (s := S1x1x1x256x256) ![0, 0, 0, 0, 0] S1x1x1x256x256.size inb_S1x1x1x256x256_S1x1x1x256x256_0_0_0_0_0
/-- channel 0 of the output block, -/
abbrev rCh0 : Rect S8x2x256x256 := Rect.unit (s := S8x2x256x256) ![0, 0, 0, 0] S8x1x256x256.size inb_S8x2x256x256_S8x1x256x256_0_0_0_0
/-- and channel 1 of it. -/
abbrev rCh1 : Rect S8x2x256x256 := Rect.unit (s := S8x2x256x256) ![0, 1, 0, 0] S8x1x256x256.size inb_S8x2x256x256_S8x1x256x256_0_1_0_0

/-- The output block after the body, from the two input blocks: the store into channel 1 laid over the store into
    channel 0 (the later store first). -/
def outBlock (x0 : Vec F S1x8x1x256x256 .f32) (x1 : Vec F S1x1x1x256x256 .f32) : Vec F S8x2x256x256 .f32 :=
  View.canon [⟨rCh1, k0_pay3 (View.ld x0 rFrames) (View.ld x1 rPrev)⟩, ⟨rCh0, k0_pay2 (View.ld x0 rFrames) (View.ld x1 rPrev)⟩]

/-- The two channel stores tile the block. -/
theorem cover_out (p1 p0 : Vec F S8x1x256x256 .f32) (y : S8x2x256x256.Idx) :
    ∃ pc ∈ ([⟨rCh1, p1⟩, ⟨rCh0, p0⟩] : List (View.Piece (Elt F) S8x2x256x256 .f32)), y ∈ pc.1.set :=
  View.cover_of_tiled [⟨rCh1, p1⟩, ⟨rCh0, p0⟩] S8x1x256x256.size (by rfl) y

/-! ## The body's triple -/

set_option maxHeartbeats 1000000 in
/-- The body on whole staging memrefs, the inputs' at contents `x0`, `x1` and the output's at anything, runs to the
    continuation holding the inputs' as they were and the output's at `outBlock x0 x1`. -/
theorem sound_kernel (c : Dev nD) (E : Set ℕ) (i : grid0.Coords) (arg2 : Memref sig .tc .vmem S1x8x1x256x256 .f32) (harg2 : arg2.IsWhole)
    (arg3 : Memref sig .tc .vmem S1x1x1x256x256 .f32) (harg3 : arg3.IsWhole) (arg4 : Memref sig .tc .vmem S8x2x256x256 .f32) (harg4 : arg4.IsWhole)
    (x0 : Vec F S1x8x1x256x256 .f32) (x1 : Vec F S1x1x1x256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _ _)

/-! ## The proof data -/

/-- The pipeline's proof data on core `c`: the arrays as the region finds them; after the body at point `t` each
    input's buffer at its block and the output's at `outBlock` of the two input blocks; the invariant the core's scoped
    buffers that are no staging buffer (there are none); the argument array's left half share with window 0 and its
    right half with window 1; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_frames (c : Dev nD) (t : Fin cfg0.N) : (dats m 0 c).after 0 t = iblk m c 0 t := by dsimp only [dats]
theorem after_prev (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_frames (c : Dev nD) (t : Fin cfg0.N) (d) : (dats m 0 c).before 0 t d = iblk m c 0 t :=
  before_frames_of m (dats m 0 c) (A_eq m c 0) (after_frames m c) t d
theorem before_prev (c : Dev nD) (t : Fin cfg0.N) (d) : (dats m 0 c).before 1 t d = iblk m c 1 t :=
  before_prev_of m (dats m 0 c) (A_eq m c 1) (after_prev m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_frames, before_prev]
  rw [show (dats m 0 c).Φ t.succ = (dats m 0 c).Φ t.castSucc from rfl,
    show (dats m 0 c).owesAt () t.succ = (dats m 0 c).owesAt () t.castSucc from rfl,
    after_frames, after_prev, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.KernelIdealLaunch.lean ====
/-
  The launch of the frame-differencing kernel: the argument array divided between the two windows that read it,
  the run of the whole program, and what the run's post says of the two arrays.
-/
import proofs.«421723_j43533788512483_3_alg».proof.Proof.KernelIdealRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The buffers behind the windows' arrays are the argument and the result. -/
theorem arrRefs_eq : Finset.univ.image (Pipeline.arrRef spec0) = [main_arg0, main_v0].toFinset := by decide

/-- The argument array, whole at the full share, is its left half share for the window of eight frames and its right
    half share for the window of the one frame before them; the result array is the output window's whole. -/
theorem arrBufs_eq (c : Dev nD) :
    (Pipeline.arrBufs spec0 c (V m c) : sProp 𝕄)
      = iprop((((c.tc : Thread nD τ).loc main_arg0) ↦{fullShare} V m c main_arg0) ∗ (((c.tc : Thread nD τ).loc main_v0) ↦{fullShare} V m c main_v0)) :=
  bigSep_eq_bigSepL_of_eq [main_arg0, main_v0] arrRefs_eq (by decide) _

theorem split_arrays (c : Dev nD) :
    (Pipeline.arrBufs spec0 c (V m c) : sProp 𝕄) ⊢ (dats m 0 c).arrays ((dats m 0 c).arrAt · 0) := by
  rw [arrBufs_eq]
  unfold Pipeline.Dat.arrays
  rw [bigSep_W0]
  rw [(arr_whole0 0).set_eq_univ, (arr_whole0 2).set_eq_univ]
  rw [show (dats m 0 c).share 0 = fullShare.left from rfl, show (dats m 0 c).share 1 = fullShare.right from rfl,
    show (dats m 0 c).share 2 = fullShare from rfl]
  refine (show _ ⊢ iprop((((c.tc : Thread nD τ).loc main_arg0) ↦{fullShare.left} V m c main_arg0)
    ∗ (((c.tc : Thread nD τ).loc main_arg0) ↦{fullShare.right} V m c main_arg0)
    ∗ (((c.tc : Thread nD τ).loc main_v0) ↦{fullShare} V m c main_v0)) from ?_)
  iintro ⟨Ha, Hv⟩
  ihave H := (pointsTo_share (PosShare.mem_left_op_right fullShare)).1 $$ Ha
  icases H with ⟨H1, H2⟩
  isplitl [H1]; · iexact H1
  isplitl [H2]; · iexact H2
  iexact Hv

/-! ## The run -/

set_option backward.isDefEq.respectTransparency.types false in
/-- Every weakly fair execution of the program terminates, with every window's array at what the write-backs of the
    proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := split_arrays m) (hin := fun c => .rfl) (hout := fun c => .rfl)

/-- The argument array ends as it was launched: it is an input window's array, never written. -/
theorem arg_kept (c : Dev nD) : (dats m 0 c).arrAt 0 cfg0.N = m ((c : Thread nD τ).loc main_arg0) :=
  ((dats m 0 c).arrAt_in 0 rfl _).trans (A_eq m c 0)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (arg_kept m c)) (run_main m ρ)

/-- The run with the result array named: it ends at the output window's array after the last point, the argument
    array unchanged. -/
theorem run_result : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨(h c).1 2, ((h c).1 0).trans (arg_kept m c)⟩) (run_main m ρ)

end Cert.KernelIdeal.Run

end
-- ==== Proof.Spec.lean ====
/-
  What both programs compute, as one function of the argument array, and the law that joins the two ways of
  writing it.

  The argument is a stack of 8 batch elements × 16 frames × 3 channels of 256 × 256 pixels; only channel 0 is read.
  The result has 128 = 8 · 16 rows of 2 channels of 256 × 256 pixels.  Row r belongs to batch element r / 16 and
  frame r % 16, and both of its channels hold, pixel by pixel,

      frame (r % 16)  −  frame (r % 16 − 1)

  of channel 0 of that batch element, the subtraction of frame numbers being that of the naturals: for the first
  frame of a batch element this is the frame minus ITSELF.  That is how the kernel computes it.  The reference
  writes a literal zero for the first frame of each batch element instead.  The two agree wherever the argument
  holds a real number, since x − x = 0 for a real x; at an infinity they would differ (∞ − ∞ is not 0), which is
  why the claim is stated for finite inputs.
-/
import Idealize.ShloMosaic.PureOps.Ideal
import Idealize.ShloMosaic.Lib.ValueIdx

noncomputable section

namespace Cert.FrameDiff

open Idealize.ShloMosaic Idealize.ShloMosaic.ValueIdx

/-- The argument's shape and the result's. -/
abbrev SArg : Shape := ⟨5, ![8, 16, 3, 256, 256]⟩
abbrev SRes : Shape := ⟨4, ![128, 2, 256, 256]⟩

theorem batch_lt (r : Fin 128) : r.val / 16 < 8 := by omega
theorem frame_lt (r : Fin 128) (back : Nat) : r.val % 16 - back < 16 := by omega

/-- Channel 0 of the frame `back` frames before frame `r % 16` (not before frame 0) of batch element `r / 16`, at
    pixel (h, w). -/
def frameOf (x : SArg.Idx → EReal) (r : Fin 128) (back : Nat) (h w : Fin 256) : EReal :=
  x (ix5 (⟨r.val / 16, batch_lt r⟩ : Fin 8) (⟨r.val % 16 - back, frame_lt r back⟩ : Fin 16) (0 : Fin 3) h w)

/-- Every row's frame minus the frame before it, a batch element's first frame minus itself; both channels alike. -/
def diffSelf (x : SArg.Idx → EReal) (r : Fin 128) (h w : Fin 256) : EReal :=
  frameOf x r 0 h w - frameOf x r 1 h w

/-- The same with a literal zero at a batch element's first frame. -/
def diffZero (x : SArg.Idx → EReal) (r : Fin 128) (h w : Fin 256) : EReal :=
  if r.val % 16 = 0 then 0 else frameOf x r 0 h w - frameOf x r 1 h w

/-- Where every entry of the argument is a real number the two agree: a real number minus itself is zero. -/
theorem diffZero_eq_diffSelf (x : SArg.Idx → EReal) (hx : ∀ i, x i ≠ ⊤ ∧ x i ≠ ⊥) (r : Fin 128) (h w : Fin 256) :
    diffZero x r h w = diffSelf x r h w := by
  unfold diffZero diffSelf
  split
  · next h0 =>
    have e : frameOf x r 1 h w = frameOf x r 0 h w := by
      unfold frameOf
      congr 2
      exact Fin.ext (by show r.val % 16 - 1 = r.val % 16 - 0; omega)
    rw [e]
    exact (EReal.sub_self (hx _).1 (hx _).2).symm
  · rfl

/-- The result array as a function of the argument array: at row r, either channel, pixel (h, w), the difference of
    frame r % 16 of batch element r / 16 and the frame before it. -/
def result (x : SArg.Idx → EReal) : SRes.Idx → EReal := fun i => diffSelf x (i 0) (i 2) (i 3)

theorem result_ix4 (x : SArg.Idx → EReal) (r : Fin 128) (ch : Fin 2) (h w : Fin 256) :
    result x (ix4 r ch h w) = diffSelf x r h w := rfl

end Cert.FrameDiff

end
-- ==== Proof.KernelIdealValue.lean ====
/-
  What the kernel leaves in the result array, index by index.

  At one grid point the body's difference is read pixel by pixel: row k of the block is row k of the eight loaded frames
  minus the row before it in the concatenation "one earlier frame, then the first seven of the eight" — the earlier
  frame's for k = 0, row k − 1 of the eight otherwise.  Both channel stores carry that same difference, so the output
  block at (k, channel, h, w) is the difference at (k, h, w).
-/
import proofs.«421723_j43533788512483_3_alg».proof.Proof.KernelIdealLaunch
import proofs.«421723_j43533788512483_3_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Run Cert.FrameDiff
open Idealize.ShloMosaic Idealize.ShloMosaic.TcCoe Idealize.ShloMosaic.ValueIdx Idealize.SL.Sem
open Idealize.ShloMosaic.Pipeline (Dat)

/-! ## The body's layout operations read at an index -/

section Layout

variable {α : Type}

/-- The block of eight frames with its two unit axes dropped: row k is frame k of the block. -/
theorem frames_cast_apply (x0 : S1x8x1x256x256.Idx → α) (k : Fin 8) (h w : Fin 256) :
    shapeCast S8x256x256 x0 shapeCasts_S1x8x1x256x256_S8x256x256 (ix3 k h w) = x0 (ix5 (0 : Fin 1) k (0 : Fin 1) h w) :=
  shapeCast_apply x0 shapeCasts_S1x8x1x256x256_S8x256x256 (ix3 k h w) (ix5 (0 : Fin 1) k (0 : Fin 1) h w) (by
    rewrite [Shape.rowMajor_val_five, Shape.rowMajor_val_three]
    show ((((0 : Nat) * 8 + k.val) * 1 + 0) * 256 + h.val) * 256 + w.val = (k.val * 256 + h.val) * 256 + w.val
    omega)

/-- The one-frame block with its two unit axes dropped. -/
theorem prev_cast_apply (x1 : S1x1x1x256x256.Idx → α) (h w : Fin 256) :
    shapeCast S1x256x256 x1 shapeCasts_S1x1x1x256x256_S1x256x256 (ix3 (0 : Fin 1) h w) = x1 (ix5 (0 : Fin 1) (0 : Fin 1) (0 : Fin 1) h w) :=
  shapeCast_apply x1 shapeCasts_S1x1x1x256x256_S1x256x256 (ix3 (0 : Fin 1) h w) (ix5 (0 : Fin 1) (0 : Fin 1) (0 : Fin 1) h w) (by
    rewrite [Shape.rowMajor_val_five, Shape.rowMajor_val_three]
    show ((((0 : Nat) * 1 + 0) * 1 + 0) * 256 + h.val) * 256 + w.val = ((0 : Nat) * 256 + h.val) * 256 + w.val
    omega)

/-- The first seven rows of eight. -/
theorem first_seven_apply (v : S8x256x256.Idx → α) (k : Fin 7) (h w : Fin 256) :
    extractStridedSlice S7x256x256 ![0, 0, 0] v slices_S8x256x256_o0_0_0_S7x256x256 (ix3 k h w)
      = v (ix3 (⟨k.val, by omega⟩ : Fin 8) h w) :=
  extractStridedSlice_apply ![0, 0, 0] v slices_S8x256x256_o0_0_0_S7x256x256 (ix3 k h w) (ix3 (⟨k.val, by omega⟩ : Fin 8) h w)
    (fun a => match a with
      | ⟨0, _⟩ => by show k.val = 0 + k.val; omega
      | ⟨1, _⟩ => by show h.val = 0 + h.val; omega
      | ⟨2, _⟩ => by show w.val = 0 + w.val; omega)

/-- "One row, then seven rows" read at row 0 is the one row; -/
theorem shifted_apply_zero (a1 : S1x256x256.Idx → α) (a7 : S7x256x256.Idx → α) (k : Fin 8) (hk : k.val = 0) (h w : Fin 256) :
    concatenate S8x256x256 0 [⟨S1x256x256, a1⟩, ⟨S7x256x256, a7⟩] concatenates_S1x256x256_S7x256x256_S8x256x256_d0 (ix3 k h w)
      = a1 (ix3 (0 : Fin 1) h w) :=
  concatenate_pair_apply_left (0 : Fin 3) a1 a7 concatenates_S1x256x256_S7x256x256_S8x256x256_d0 (ix3 k h w) rfl (ix3 (0 : Fin 1) h w)
    (fun b => match b with
      | ⟨0, _⟩ => by show (0 : Nat) = k.val; omega
      | ⟨1, _⟩ => rfl
      | ⟨2, _⟩ => rfl)

/-- read at a later row k it is row k − 1 of the seven. -/
theorem shifted_apply_succ (a1 : S1x256x256.Idx → α) (a7 : S7x256x256.Idx → α) (k : Fin 8) (hk : k.val ≠ 0) (h w : Fin 256) :
    concatenate S8x256x256 0 [⟨S1x256x256, a1⟩, ⟨S7x256x256, a7⟩] concatenates_S1x256x256_S7x256x256_S8x256x256_d0 (ix3 k h w)
      = a7 (ix3 (⟨k.val - 1, by omega⟩ : Fin 7) h w) :=
  concatenate_pair_apply_right (0 : Fin 3) a1 a7 concatenates_S1x256x256_S7x256x256_S8x256x256_d0 (ix3 k h w) rfl rfl
    (ix3 (⟨k.val - 1, by omega⟩ : Fin 7) h w)
    (fun b hb => match b, hb with
      | ⟨0, _⟩, hb => absurd rfl hb
      | ⟨1, _⟩, _ => rfl
      | ⟨2, _⟩, _ => rfl)
    (by show k.val - 1 + 1 = k.val; omega)

end Layout

/-! ## The difference at one row of the block -/

/-- Row k of the body's difference: frame k of the eight minus the frame before it — the earlier frame for k = 0. -/
theorem diff_apply (x0 : Vec Ideal S1x8x1x256x256 .f32) (x1 : Vec Ideal S1x1x1x256x256 .f32) (k : Fin 8) (h w : Fin 256) :
    k0_pay1 (F := Ideal) x0 x1 (ix3 k h w)
      = x0 (ix5 (0 : Fin 1) k (0 : Fin 1) h w)
        - (if k.val = 0 then x1 (ix5 (0 : Fin 1) (0 : Fin 1) (0 : Fin 1) h w)
            else x0 (ix5 (0 : Fin 1) (⟨k.val - 1, by omega⟩ : Fin 8) (0 : Fin 1) h w)) := by
  unfold k0_pay1
  refine (subf_apply _ _ _).trans ?_
  refine congrArg₂ (· - ·) (frames_cast_apply x0 k h w) ?_
  split
  · next hk =>
    exact (shifted_apply_zero _ _ k hk h w).trans (prev_cast_apply x1 h w)
  · next hk =>
    exact (shifted_apply_succ _ _ k hk h w).trans ((first_seven_apply _ _ h w).trans (frames_cast_apply x0 _ h w))

/-! ## The output block after the body -/

/-- An index of the output block with its channel dropped. -/
abbrev dropCh (y : S8x2x256x256.Idx) : S8x256x256.Idx := fun a => match a with
  | ⟨0, _⟩ => ⟨(y 0).val, (y 0).isLt⟩
  | ⟨1, _⟩ => ⟨(y 2).val, (y 2).isLt⟩
  | ⟨2, _⟩ => ⟨(y 3).val, (y 3).isLt⟩

theorem dropCh_ix4 (k : Fin 8) (ch : Fin 2) (h w : Fin 256) : dropCh (ix4 k ch h w) = ix3 k h w := by
  funext a; match a with | ⟨0, _⟩ => rfl | ⟨1, _⟩ => rfl | ⟨2, _⟩ => rfl

section Pieces

variable {F : FTy → Type} [FloatOps F]

/-- The store into channel 1 carries the difference: its element at (k, 0, h, w) is the difference at (k, h, w). -/
theorem piece_ch1 (d : FVec F S8x256x256 .f32) (x : rCh1.shape.Idx) :
    shapeCast S8x1x256x256 d shapeCasts_S8x256x256_S8x1x256x256 x = d (dropCh (rCh1.emb x)) :=
  shapeCast_apply d shapeCasts_S8x256x256_S8x1x256x256 x (dropCh (rCh1.emb x)) (by
    rewrite [Shape.rowMajor_val_three, Shape.rowMajor_val_four]
    have h1 : (x 1).val < 1 := (x 1).isLt
    show ((0 + 1 * (x 0).val) * 256 + (0 + 1 * (x 2).val)) * 256 + (0 + 1 * (x 3).val) = (((x 0).val * 1 + (x 1).val) * 256 + (x 2).val) * 256 + (x 3).val
    omega)

/-- So does the store into channel 0. -/
theorem piece_ch0 (d : FVec F S8x256x256 .f32) (x : rCh0.shape.Idx) :
    shapeCast S8x1x256x256 d shapeCasts_S8x256x256_S8x1x256x256 x = d (dropCh (rCh0.emb x)) :=
  shapeCast_apply d shapeCasts_S8x256x256_S8x1x256x256 x (dropCh (rCh0.emb x)) (by
    rewrite [Shape.rowMajor_val_three, Shape.rowMajor_val_four]
    have h1 : (x 1).val < 1 := (x 1).isLt
    show ((0 + 1 * (x 0).val) * 256 + (0 + 1 * (x 2).val)) * 256 + (0 + 1 * (x 3).val) = (((x 0).val * 1 + (x 1).val) * 256 + (x 2).val) * 256 + (x 3).val
    omega)

/-- The output block after the body, at (k, channel, h, w), is the body's difference at (k, h, w): both stores carry
    the difference, and together they cover the block. -/
theorem outBlock_apply (x0 : Vec F S1x8x1x256x256 .f32) (x1 : Vec F S1x1x1x256x256 .f32) (y : S8x2x256x256.Idx) :
    outBlock x0 x1 y = k0_pay1 (View.ld x0 rFrames) (View.ld x1 rPrev) (dropCh y) := by
  unfold outBlock
  refine View.canon_apply_of_pieces (fun y => k0_pay1 (View.ld x0 rFrames) (View.ld x1 rPrev) (dropCh y)) _ ?_ y (cover_out _ _ y)
  intro p hp x
  simp only [List.mem_cons, List.not_mem_nil, or_false] at hp
  rcases hp with rfl | rfl
  · exact piece_ch1 (F := F) (k0_pay1 (View.ld x0 rFrames) (View.ld x1 rPrev)) x
  · exact piece_ch0 (F := F) (k0_pay1 (View.ld x0 rFrames) (View.ld x1 rPrev)) x

end Pieces

/-! ## One block, then the whole array -/

theorem hz5 : (![0, 0, 0, 0, 0] : Fin 5 → Nat) = fun _ => 0 := funext fun a => by fin_cases a <;> rfl

/-- The output block at (k, channel, h, w) from the two input blocks. -/
theorem block_apply (x0 : Vec Ideal S1x8x1x256x256 .f32) (x1 : Vec Ideal S1x1x1x256x256 .f32) (k : Fin 8) (ch : Fin 2) (h w : Fin 256) :
    outBlock (F := Ideal) x0 x1 (ix4 k ch h w)
      = x0 (ix5 (0 : Fin 1) k (0 : Fin 1) h w)
        - (if k.val = 0 then x1 (ix5 (0 : Fin 1) (0 : Fin 1) (0 : Fin 1) h w)
            else x0 (ix5 (0 : Fin 1) (⟨k.val - 1, by omega⟩ : Fin 8) (0 : Fin 1) h w)) := by
  rw [outBlock_apply, dropCh_ix4, View.ld_unit_zero (S := S1x8x1x256x256) hz5, View.ld_unit_zero (S := S1x1x1x256x256) hz5]
  exact diff_apply x0 x1 k h w

/-- The printed index maps over the grid.  Point t works on batch element t / 2 and on the half t % 2 of its frames:
    the eight-frame window is block (t / 2, t % 2) of the argument, the one-frame window is frame 8 (t % 2) − 1 (frame 0
    for the first half) of that batch element, and the output window is block t of the result's rows. -/
theorem idx_facts : ∀ t : Fin cfg0.N,
    win0_0.index t (0 : Fin 5) = t.val / 2 ∧ win0_0.index t (1 : Fin 5) = t.val % 2 ∧ win0_0.index t (2 : Fin 5) = 0
    ∧ win0_0.index t (3 : Fin 5) = 0 ∧ win0_0.index t (4 : Fin 5) = 0
    ∧ win0_1.index t (0 : Fin 5) = t.val / 2 ∧ win0_1.index t (1 : Fin 5) = t.val % 2 * 8 - 1 ∧ win0_1.index t (2 : Fin 5) = 0
    ∧ win0_1.index t (3 : Fin 5) = 0 ∧ win0_1.index t (4 : Fin 5) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

variable (m : (ℓ : Loc nD τ sig) → Buf (Elt Ideal) ℓ) (ρ : Dev nD → PrngReg)

/-- The argument array as the region finds it, as a function into the extended reals. -/
abbrev argArr (c : Dev nD) : SArg.Idx → EReal := V m c main_arg0

/-- What point t writes back is block t of the result function of the argument array. -/
theorem flushed_eq (c : Dev nD) (t : Fin cfg0.N) :
    (dats m 0 c).flushed 2 t = ((cfg0.win 2).blk t).view.read (Elt Ideal) (result (argArr m c)) := by
  show (cfg0.win 2).cut (grid0.coords t) ((dats m 0 c).after 2 t) = _
  rw [after_out]
  funext y
  obtain ⟨k, ch, h, w, rfl⟩ : ∃ (k : Fin 8) (ch : Fin 2) (h w : Fin 256), y = ix4 k ch h w := ⟨y 0, y 1, y 2, y 3, eq_ix4 y⟩
  refine (block_apply (iblk m c 0 t) (iblk m c 1 t) k ch h w).trans ?_
  obtain ⟨a0, a1, a2, a3, a4, p0, p1, p2, p3, p4, o0, o1, o2, o3⟩ := idx_facts t
  have hN : t.val < 16 := N_0 ▸ t.isLt
  have hk : k.val < 8 := k.isLt
  have hh : h.val < 256 := h.isLt
  have hw : w.val < 256 := w.isLt
  show argArr m c (((cfg0.win 0).blk t).view.emb (ix5 (0 : Fin 1) k (0 : Fin 1) h w))
      - (if k.val = 0 then argArr m c (((cfg0.win 1).blk t).view.emb (ix5 (0 : Fin 1) (0 : Fin 1) (0 : Fin 1) h w))
          else argArr m c (((cfg0.win 0).blk t).view.emb (ix5 (0 : Fin 1) (⟨k.val - 1, by omega⟩ : Fin 8) (0 : Fin 1) h w)))
    = result (argArr m c) (((cfg0.win 2).blk t).view.emb (ix4 k ch h w))
  refine congrArg₂ (· - ·) (congrArg (argArr m c) ?_) ?_
  ·
    funext a
    apply Fin.ext
    match a with
    | ⟨0, _⟩ => show win0_0.index t (0 : Fin 5) * 1 + 1 * 0 = (win0_2.index t (0 : Fin 4) * 8 + 1 * k.val) / 16; omega
    | ⟨1, _⟩ => show win0_0.index t (1 : Fin 5) * 8 + 1 * k.val = (win0_2.index t (0 : Fin 4) * 8 + 1 * k.val) % 16 - 0; omega
    | ⟨2, _⟩ => show win0_0.index t (2 : Fin 5) * 1 + 1 * 0 = 0; omega
    | ⟨3, _⟩ => show win0_0.index t (3 : Fin 5) * 256 + 1 * h.val = win0_2.index t (2 : Fin 4) * 256 + 1 * h.val; omega
    | ⟨4, _⟩ => show win0_0.index t (4 : Fin 5) * 256 + 1 * w.val = win0_2.index t (3 : Fin 4) * 256 + 1 * w.val; omega
  · split
    · next hk0 =>
      refine congrArg (argArr m c) ?_
      funext a
      apply Fin.ext
      match a with
      | ⟨0, _⟩ => show win0_1.index t (0 : Fin 5) * 1 + 1 * 0 = (win0_2.index t (0 : Fin 4) * 8 + 1 * k.val) / 16; omega
      | ⟨1, _⟩ => show win0_1.index t (1 : Fin 5) * 1 + 1 * 0 = (win0_2.index t (0 : Fin 4) * 8 + 1 * k.val) % 16 - 1; omega
      | ⟨2, _⟩ => show win0_1.index t (2 : Fin 5) * 1 + 1 * 0 = 0; omega
      | ⟨3, _⟩ => show win0_1.index t (3 : Fin 5) * 256 + 1 * h.val = win0_2.index t (2 : Fin 4) * 256 + 1 * h.val; omega
      | ⟨4, _⟩ => show win0_1.index t (4 : Fin 5) * 256 + 1 * w.val = win0_2.index t (3 : Fin 4) * 256 + 1 * w.val; omega
    · next hk0 =>
      refine congrArg (argArr m c) ?_
      funext a
      apply Fin.ext
      match a with
      | ⟨0, _⟩ => show win0_0.index t (0 : Fin 5) * 1 + 1 * 0 = (win0_2.index t (0 : Fin 4) * 8 + 1 * k.val) / 16; omega
      | ⟨1, _⟩ => show win0_0.index t (1 : Fin 5) * 8 + 1 * (k.val - 1) = (win0_2.index t (0 : Fin 4) * 8 + 1 * k.val) % 16 - 1; omega
      | ⟨2, _⟩ => show win0_0.index t (2 : Fin 5) * 1 + 1 * 0 = 0; omega
      | ⟨3, _⟩ => show win0_0.index t (3 : Fin 5) * 256 + 1 * h.val = win0_2.index t (2 : Fin 4) * 256 + 1 * h.val; omega
      | ⟨4, _⟩ => show win0_0.index t (4 : Fin 5) * 256 + 1 * w.val = win0_2.index t (3 : Fin 4) * 256 + 1 * w.val; omega

/-! ## The whole array -/

/-- An index of the result lies in point t's block iff each coordinate lies in the block's range on its axis. -/
theorem mem_blk (t : Fin cfg0.N) (i : S128x2x256x256.Idx) :
    i ∈ ((cfg0.win 2).blk t).view.set ↔ ∀ a : Fin 4, win0_2.index t a * S8x2x256x256.size a ≤ (i a).val ∧ (i a).val < win0_2.index t a * S8x2x256x256.size a + S8x2x256x256.size a := by
  show i ∈ ((View.whole main_v0).slice (win0_2.rect t)).set ↔ _
  rw [View.set_slice_whole, Rect.mem_set_unit]
  exact Iff.rfl

/-- Every index of the result is in some point's block: row r is in the block of point r / 8. -/
theorem cover (i : S128x2x256x256.Idx) : ∃ t : Fin cfg0.N, (cfg0.win 2).flush t = true ∧ i ∈ ((cfg0.win 2).blk t).view.set := by
  have hi0 : (i 0).val < 128 := (i 0).isLt
  have hi1 : (i 1).val < 2 := (i 1).isLt
  have hi2 : (i 2).val < 256 := (i 2).isLt
  have hi3 : (i 3).val < 256 := (i 3).isLt
  obtain ⟨t, ht⟩ : ∃ t : Fin cfg0.N, t.val = (i 0).val / 8 := ⟨⟨(i 0).val / 8, by rw [show cfg0.N = 16 from N_0]; omega⟩, rfl⟩
  obtain ⟨-, -, -, -, -, -, -, -, -, -, o0, o1, o2, o3⟩ := idx_facts t
  refine ⟨t, flush0_2 t, (mem_blk t i).mpr fun a => ?_⟩
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 2 ≤ (i 1).val ∧ (i 1).val < win0_2.index t (1 : Fin 4) * 2 + 2; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The result array after the run is the result function of the argument array as launched. -/
theorem final (c : Dev nD) : (dats m 0 c).arrAt 2 cfg0.N = result (m ((c : Thread nD τ).loc main_arg0)) :=
  (dats m 0 c).arrAt_eq_of_cover 2 (result (argArr m c)) (fun t _ => flushed_eq m c t) cover

/-- The run: every weakly fair execution of the kernel's program terminates with the result array at the result
    function of the argument array and the argument array unchanged. -/
theorem run : θ_run defs (onTc (τ := τ) (main (F := Ideal))) ⟨m, fun _ => 0, ρ⟩ fun r => ∀ c : Dev nD,
      r.2.mem ((c.tc : Thread nD τ).loc main_v0) = result (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (run_result m ρ)

end Cert.KernelIdeal.Result

end
-- ==== Proof.Reference.lean ====
/-
  What the reference computes, index by index.

  The reference keeps channel 0, subtracts from frames 1 … 15 of every batch element the frame before each, puts a
  block of zeros in front as frame 0's difference, merges batch element and frame into one row axis and repeats the
  result along a new channel axis of extent 2.  Read at row r, any channel, pixel (h, w): zero when r % 16 = 0,
  otherwise frame r % 16 minus frame r % 16 − 1 of batch element r / 16.  Where the argument holds real numbers that
  is the frame minus the frame before it with the first frame before itself.
-/
import proofs.«421723_j43533788512483_3_alg».proof.Proof.Gen.ReferenceIdeal.Run
import proofs.«421723_j43533788512483_3_alg».proof.Proof.Gen.ReferenceIdeal.Read
import proofs.«421723_j43533788512483_3_alg».proof.Proof.Spec
import Idealize.ShloMosaic.Lib.Pipeline.Value
import Idealize.ShloMosaic.Lib.ValueIdx
import Idealize.ShloMosaic.PureOps.Ideal.Laws

noncomputable section

namespace Cert.ReferenceIdeal.Result

open Cert.ReferenceIdeal Cert.ReferenceIdeal.Gen Cert.ReferenceIdeal.Read Cert.FrameDiff
open Idealize.ShloMosaic Idealize.ShloMosaic.TcCoe Idealize.ShloMosaic.ValueIdx Idealize.SL.Sem

/-- Channel 0 of frame l of batch element b, as the reference's slices and reshape reach it. -/
theorem channel0_apply (x : (⟨S8x16x3x256x256, .f32⟩ : BufTy).Contents (Elt Ideal)) (b : Fin 8) (l : Fin 16) (h w : Fin 256) :
    val_main_v1 (F := Ideal) x (ix4 b l h w) = x (ix5 b l (0 : Fin 3) h w) := by
  rw [val_main_v1_apply, val_main_v0_apply]
  congr 1
  funext a; apply Fin.ext
  have hb : b.val < 8 := b.isLt
  have hl : l.val < 16 := l.isLt
  have hh : h.val < 256 := h.isLt
  have hw : w.val < 256 := w.isLt
  match a with
  | ⟨0, _⟩ => show (((b.val * 16 + l.val) * 256 + h.val) * 256 + w.val) / 1048576 = b.val; omega
  | ⟨1, _⟩ => show (((b.val * 16 + l.val) * 256 + h.val) * 256 + w.val) / 65536 % 16 = l.val; omega
  | ⟨2, _⟩ => rfl
  | ⟨3, _⟩ => show (((b.val * 16 + l.val) * 256 + h.val) * 256 + w.val) / 256 % 256 = h.val; omega
  | ⟨4, _⟩ => show (((b.val * 16 + l.val) * 256 + h.val) * 256 + w.val) % 256 = w.val; omega

/-- The fifteen differences: entry l is frame l + 1 minus frame l. -/
theorem later_diff_apply (x : (⟨S8x16x3x256x256, .f32⟩ : BufTy).Contents (Elt Ideal)) (b : Fin 8) (l : Fin 15) (h w : Fin 256) :
    val_main_v4 (F := Ideal) x (ix4 b l h w)
      = x (ix5 b (⟨l.val + 1, by omega⟩ : Fin 16) (0 : Fin 3) h w) - x (ix5 b (⟨l.val, by omega⟩ : Fin 16) (0 : Fin 3) h w) := by
  rw [val_main_v4_apply, val_main_v2_apply, val_main_v3_apply]
  have e2 : idx_main_v2 (ix4 b l h w) = ix4 b (⟨l.val + 1, by omega⟩ : Fin 16) h w := by
    funext a; apply Fin.ext
    match a with
    | ⟨0, _⟩ => rfl
    | ⟨1, _⟩ => show 1 + l.val = l.val + 1; omega
    | ⟨2, _⟩ => rfl
    | ⟨3, _⟩ => rfl
  have e3 : idx_main_v3 (ix4 b l h w) = ix4 b (⟨l.val, by omega⟩ : Fin 16) h w := by
    funext a; apply Fin.ext
    match a with
    | ⟨0, _⟩ => rfl
    | ⟨1, _⟩ => rfl
    | ⟨2, _⟩ => rfl
    | ⟨3, _⟩ => rfl
  rw [e2, e3, channel0_apply, channel0_apply]
  rfl

/-- The reference's result at row r, either channel, pixel (h, w). -/
theorem reference_apply (x : (⟨S8x16x3x256x256, .f32⟩ : BufTy).Contents (Elt Ideal)) (r : Fin 128) (ch : Fin 2) (h w : Fin 256) :
    val_main_v9 (F := Ideal) x (ix4 r ch h w) = diffZero x r h w := by
  rw [val_main_v9_apply, val_main_v8_apply, val_main_v7_apply]
  have hr : r.val < 128 := r.isLt
  have hh : h.val < 256 := h.isLt
  have hw : w.val < 256 := w.isLt
  have ej : idx_main_v7 (idx_main_v8 (idx_main_v9 (ix4 r ch h w)))
      = ix4 (⟨r.val / 16, batch_lt r⟩ : Fin 8) (⟨r.val % 16, by omega⟩ : Fin 16) h w := by
    funext a; apply Fin.ext
    match a with
    | ⟨0, _⟩ => show ((r.val * 256 + h.val) * 256 + w.val) / 1048576 = r.val / 16; omega
    | ⟨1, _⟩ => show ((r.val * 256 + h.val) * 256 + w.val) / 65536 % 16 = r.val % 16; omega
    | ⟨2, _⟩ => show ((r.val * 256 + h.val) * 256 + w.val) / 256 % 256 = h.val; omega
    | ⟨3, _⟩ => show ((r.val * 256 + h.val) * 256 + w.val) % 256 = w.val; omega
  rw [ej]
  unfold val_main_v6 diffZero
  split
  · next h0 =>
    refine (concatenate_pair_apply_left (t := S8x16x256x256) (s₁ := S8x1x256x256) (s₂ := S8x15x256x256) (1 : Fin 4) (val_main_v5 (F := Ideal)) (val_main_v4 (F := Ideal) x)
      concatenates_S8x1x256x256_S8x15x256x256_S8x16x256x256_d1 (ix4 (⟨r.val / 16, batch_lt r⟩ : Fin 8) (⟨r.val % 16, by omega⟩ : Fin 16) h w) rfl
      (ix4 (⟨r.val / 16, batch_lt r⟩ : Fin 8) (0 : Fin 1) h w) (fun b => match b with
        | ⟨0, _⟩ => rfl
        | ⟨1, _⟩ => by show (0 : Nat) = r.val % 16; omega
        | ⟨2, _⟩ => rfl
        | ⟨3, _⟩ => rfl)).trans ?_
    rw [val_main_v5_apply, val_main_cst_apply]
    exact Ideal.ofBits_zero_f32
  · next h0 =>
    refine (concatenate_pair_apply_right (t := S8x16x256x256) (s₁ := S8x1x256x256) (s₂ := S8x15x256x256) (1 : Fin 4) (val_main_v5 (F := Ideal)) (val_main_v4 (F := Ideal) x)
      concatenates_S8x1x256x256_S8x15x256x256_S8x16x256x256_d1 (ix4 (⟨r.val / 16, batch_lt r⟩ : Fin 8) (⟨r.val % 16, by omega⟩ : Fin 16) h w) rfl rfl
      (ix4 (⟨r.val / 16, batch_lt r⟩ : Fin 8) (⟨r.val % 16 - 1, by omega⟩ : Fin 15) h w) (fun b hb => match b, hb with
        | ⟨0, _⟩, _ => rfl
        | ⟨1, _⟩, hb => absurd rfl hb
        | ⟨2, _⟩, _ => rfl
        | ⟨3, _⟩, _ => rfl) (by show r.val % 16 - 1 + 1 = r.val % 16; omega)).trans ?_
    rw [later_diff_apply]
    unfold frameOf
    congr 2
    · congr 1; apply Fin.ext; show r.val % 16 - 1 + 1 = r.val % 16 - 0; omega

/-- The reference's result array, where the argument holds real numbers, is the result both programs compute. -/
theorem reference_eq (x : (⟨S8x16x3x256x256, .f32⟩ : BufTy).Contents (Elt Ideal)) (hx : ∀ i, x i ≠ ⊤ ∧ x i ≠ ⊥) :
    val_main_v9 (F := Ideal) x = result x := by
  funext i
  obtain ⟨r, ch, h, w, rfl⟩ : ∃ (r : Fin 128) (ch : Fin 2) (h w : Fin 256), i = ix4 r ch h w := ⟨i 0, i 1, i 2, i 3, eq_ix4 i⟩
  rw [reference_apply, result_ix4]
  exact diffZero_eq_diffSelf x hx r h w

end Cert.ReferenceIdeal.Result

end
-- ==== Proof.Finite.lean ====
/-
  What the precondition says of the argument: every entry is a real number.

  The precondition computes, entry by entry, whether |x| is below +∞, and folds the answers by "and".  The fold coming
  out true means every answer was true; and |x| = max x (−x) being below +∞ means that x is neither +∞ nor −∞.
-/
import proofs.«421723_j43533788512483_3_alg».proof.Pre_finite_inputs
import proofs.«421723_j43533788512483_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- The all-ones-exponent pattern with a zero fraction denotes +∞. -/
theorem inf_pattern : Ideal.ofBits .f32 0x7F800000#32 = (⊤ : EReal) := by simp [Ideal.ofBits, Ideal.ieee]

/-- An extended real whose absolute value compares below +∞ is neither infinity. -/
theorem real_of_abs_lt (x : EReal) (h : Ideal.cmp .olt (max x (-x)) (Ideal.ofBits .f32 0x7F800000#32) = 1#1) : x ≠ ⊤ ∧ x ≠ ⊥ := by
  rw [inf_pattern] at h
  have hlt : max x (-x) < (⊤ : EReal) := by
    by_contra hn
    simp [Ideal.cmp, hn] at h
  constructor
  · rintro rfl
    simp at hlt
  · rintro rfl
    simp at hlt

/-- Under the precondition every entry of the argument is a real number. -/
theorem real_of_pre (x : FVec Ideal S8x16x3x256x256 .f32) (h : Cert.Pre_finite_inputs.fn (F := Ideal) x = fun _ => 1#1) :
    ∀ i, x i ≠ ⊤ ∧ x i ≠ ⊥ := by
  intro i
  have h0 := congrFun h ValueIdx.ix0
  dsimp only [Cert.Pre_finite_inputs.fn] at h0
  have hi := Host.reduce_andi_all _ _ _ _ _ h0 i
  exact real_of_abs_lt (x i) hi

end Cert.Finite

end
-- ==== Proof.lean ====
/-
  The frame-differencing kernel against its reference: out[16 b + l] = x[b, l, 0] − x[b, max(l − 1, 0), 0], repeated
  over two channels.

  The kernel walks a grid of 8 × 2 points; at point (b, j) it loads frames 8j … 8j + 7 of channel 0 of batch element b
  and the one frame before them (frame 0 again for j = 0), both from the same argument array, subtracts from each
  frame the frame before it, and stores the difference into both channels of rows 8(2b + j) … 8(2b + j) + 7 of the
  result.  So every row r of the result holds frame r % 16 of batch element r / 16 minus the frame before it, and the
  first frame of a batch element minus itself.  The reference writes a literal zero there instead.  On real numbers
  x − x = 0, so the two results are equal under the precondition that every input is finite — and that is the only
  place the precondition is used.

  The three frames: the kernel's two programs run by the pipeline's launch theorem for windows that share an array
  (the argument's full share is divided between the two windows that read it); the reference is host operations only
  and its run is read back operation by operation.  Nothing was rewritten by the idealization, so it preserves the
  kernel trivially.
-/
import proofs.«421723_j43533788512483_3_alg».proof.Defs
import proofs.«421723_j43533788512483_3_alg».proof.Proof.Gen.Kernel
import proofs.«421723_j43533788512483_3_alg».proof.Proof.Gen.KernelIdeal
import proofs.«421723_j43533788512483_3_alg».proof.Proof.Gen.ReferenceIdeal
import proofs.«421723_j43533788512483_3_alg».proof.Proof.Gen.Pre_finite_inputs
import proofs.«421723_j43533788512483_3_alg».proof.Proof.KernelLaunch
import proofs.«421723_j43533788512483_3_alg».proof.Proof.KernelIdealValue
import proofs.«421723_j43533788512483_3_alg».proof.Proof.Reference
import proofs.«421723_j43533788512483_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its argument as it was. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the same function of the argument array: the kernel's by its run read
    block by block, the reference's by its operations read index by index and, for the first frame of each batch
    element, the finiteness of the input. -/
theorem algebraic : Cert.algebraic_KernelIdeal_ReferenceIdeal := by
  intro m ρ m' ρ' hpre hagree
  refine ⟨fun c => Cert.FrameDiff.result (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, hagree c]
  exact Cert.ReferenceIdeal.Result.reference_eq _ (Cert.Finite.real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
